-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  main_v3
-- ==== Kernel.lean ====
abbrev S32x1024x1024 : Shape := ⟨3, ![32, 1024, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x256x1024_S1x256x1024_0_0_0 : ∀ a, (![0, 0, 0] : Fin 3 → Nat) a + S1x256x1024.size a ≤ S1x256x1024.size a
  h_S1x256x1024 : 0 < S1x256x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S32x1024x1024.size a
  hwx0_0 : ∀ i : grid0.Coords, EltTy.bits .f32 = 32 ∨ (Rect.block (s := S32x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S32x1024x1024.size a
  hwx0_1 : ∀ i : grid0.Coords, EltTy.bits .f32 = 32 ∨ (Rect.block (s := S32x1024x1024) S1x256x1024.size (cc0_transform_1 i) (hinb0_1 i)).WholeWords (EltTy.packing .f32)

variable [Facts₀]

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S33554432 : Shape := ⟨1, ![33554432]⟩
abbrev S_ : Shape := ⟨0, ![]⟩
abbrev S33554432x1 : Shape := ⟨2, ![33554432, 1]⟩

abbrev nBuf : Space → Nat
  | .hbm => 62
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S33554432, .f32⟩
  | .hbm, ⟨2, _⟩ => ⟨S33554432, .f32⟩
  | .hbm, ⟨3, _⟩ => ⟨S_, .f32⟩
  | .hbm, ⟨4, _⟩ => ⟨S33554432, .f32⟩
  | .hbm, ⟨5, _⟩ => ⟨S33554432, .i1⟩
  | .hbm, ⟨6, _⟩ => ⟨S33554432, .i32⟩
  | .hbm, ⟨7, _⟩ => ⟨S_, .i32⟩
  | .hbm, ⟨8, _⟩ => ⟨S_, .i32⟩
  | .hbm, ⟨9, _⟩ => ⟨S33554432, .i32⟩
  | .hbm, ⟨10, _⟩ => ⟨S_, .i32⟩
  | .hbm, ⟨11, _⟩ => ⟨S33554432, .i32⟩
  | .hbm, ⟨12, _⟩ => ⟨S33554432, .i32⟩
  | .hbm, ⟨13, _⟩ => ⟨S_, .i32⟩
  | .hbm, ⟨14, _⟩ => ⟨S_, .i32⟩
  | .hbm, ⟨15, _⟩ => ⟨S33554432, .i32⟩
  | .hbm, ⟨16, _⟩ => ⟨S33554432, .i32⟩
  | .hbm, ⟨17, _⟩ => ⟨S_, .f32⟩
  | .hbm, ⟨18, _⟩ => ⟨S33554432, .f32⟩
  | .hbm, ⟨19, _⟩ => ⟨S_, .i32⟩
  | .hbm, ⟨20, _⟩ => ⟨S33554432, .i32⟩
  | .hbm, ⟨21, _⟩ => ⟨S33554432, .i1⟩
  | .hbm, ⟨22, _⟩ => ⟨S_, .i32⟩
  | .hbm, ⟨23, _⟩ => ⟨S33554432, .i32⟩
  | .hbm, ⟨24, _⟩ => ⟨S33554432, .i32⟩
  | .hbm, ⟨25, _⟩ => ⟨S33554432, .i32⟩
  | .hbm, ⟨26, _⟩ => ⟨S33554432x1, .i32⟩
  | .hbm, ⟨27, _⟩ => ⟨S33554432, .f32⟩
  | .hbm, ⟨28, _⟩ => ⟨S_, .i32⟩
  | .hbm, ⟨29, _⟩ => ⟨S33554432, .i32⟩
  | .hbm, ⟨30, _⟩ => ⟨S33554432, .i32⟩
  | .hbm, ⟨31, _⟩ => ⟨S_, .i32⟩
  | .hbm, ⟨32, _⟩ => ⟨S33554432, .i32⟩
  | .hbm, ⟨33, _⟩ => ⟨S33554432, .i1⟩
  | .hbm, ⟨34, _⟩ => ⟨S_, .i32⟩
  | .hbm, ⟨35, _⟩ => ⟨S33554432, .i32⟩
  | .hbm, ⟨36, _⟩ => ⟨S33554432, .i32⟩
  | .hbm, ⟨37, _⟩ => ⟨S33554432, .i32⟩
  | .hbm, ⟨38, _⟩ => ⟨S33554432x1, .i32⟩
  | .hbm, ⟨39, _⟩ => ⟨S33554432, .i32⟩
  | .hbm, ⟨40, _⟩ => ⟨S33554432, .i32⟩
  | .hbm, ⟨41, _⟩ => ⟨S_, .i32⟩
  | .hbm, ⟨42, _⟩ => ⟨S_, .i32⟩
  | .hbm, ⟨43, _⟩ => ⟨S33554432, .i32⟩
  | .hbm, ⟨44, _⟩ => ⟨S33554432, .i32⟩
  | .hbm, ⟨45, _⟩ => ⟨S33554432, .i1⟩
  | .hbm, ⟨46, _⟩ => ⟨S_, .i32⟩
  | .hbm, ⟨47, _⟩ => ⟨S_, .i32⟩
  | .hbm, ⟨48, _⟩ => ⟨S33554432, .i32⟩
  | .hbm, ⟨49, _⟩ => ⟨S33554432, .i32⟩
  | .hbm, ⟨50, _⟩ => ⟨S_, .f32⟩
  | .hbm, ⟨51, _⟩ => ⟨S33554432, .f32⟩
  | .hbm, ⟨52, _⟩ => ⟨S_, .i32⟩
  | .hbm, ⟨53, _⟩ => ⟨S33554432, .i32⟩
  | .hbm, ⟨54, _⟩ => ⟨S33554432, .i1⟩
  | .hbm, ⟨55, _⟩ => ⟨S_, .i32⟩
  | .hbm, ⟨56, _⟩ => ⟨S33554432, .i32⟩
  | .hbm, ⟨57, _⟩ => ⟨S33554432, .i32⟩
  | .hbm, ⟨58, _⟩ => ⟨S33554432, .i32⟩
  | .hbm, ⟨59, _⟩ => ⟨S33554432x1, .i32⟩
  | .hbm, ⟨60, _⟩ => ⟨S33554432, .f32⟩
  | .hbm, ⟨61, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_call0_c : Ref sig .tc := ⟨.hbm, 7, rfl⟩
abbrev main_call0_call0_v0 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_call1_v1 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_c_6 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_8 : Ref sig .tc := ⟨.hbm, 46, rfl⟩
abbrev main_call2_v0 : Ref sig .tc := ⟨.hbm, 47, rfl⟩
abbrev main_call2_v1 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_c_10 : Ref sig .tc := ⟨.hbm, 52, rfl⟩
abbrev main_v32 : Ref sig .tc := ⟨.hbm, 53, rfl⟩
abbrev main_v33 : Ref sig .tc := ⟨.hbm, 54, rfl⟩
abbrev main_c_11 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]

class Facts₀ : Prop where
  shapeCasts_S32x1024x1024_S33554432 : S32x1024x1024.ShapeCasts S33554432
  bcast_S_S33554432 : S_.BroadcastsInDim S33554432 (![] : Fin 0 → Fin S33554432.rank)
  natLt_1_32 : 1 < 32
  bcast_S_S_ : S_.BroadcastsInDim S_ (![] : Fin 0 → Fin S_.rank)
  reduceWindows_S33554432_S33554432_w33554432s1p33554431_0 : S33554432.ReduceWindows (![33554432] : Fin 1 → Nat) ![1] ![33554431] ![0] S33554432
  h_S_ : 0 < S_.numel
  bcast_S33554432_S33554432x1_0 : S33554432.BroadcastsInDim S33554432x1 (![0] : Fin 1 → Fin S33554432x1.rank)
  reducesTo_S33554432_S_d0 : S33554432.ReducesTo [0] S_
  shapeCasts_S33554432_S32x1024x1024 : S33554432.ShapeCasts S32x1024x1024
  scatter_S33554432_S33554432x1_S33554432_n_0_0_1_wf : ScatterDims.WF S33554432 S33554432x1 S33554432 [] [0] [0] 1

variable [Facts₀]

def scatter_S33554432_S33554432x1_S33554432_n_0_0_1 : ScatterDims S33554432 S33554432x1 S33554432 where
  updateWindowDims := []
  insertedWindowDims := [0]
  scatterDimsToOperandDims := [0]
  indexVectorDim := 1
  wf := scatter_S33554432_S33554432x1_S33554432_n_0_0_1_wf

class Facts : Prop extends Facts₀ where

variable [Facts]
-- ==== Proof.RefTerm.lean ====
/-
  The reference program's result as ONE term of its argument.  The reference flattens `x`, keeps the entries with
  `|x| > 1/2` (the mask), compacts them to the front of a buffer of the same length (an inclusive running count of the
  mask gives each kept entry its destination; an entry that is not kept is sent to the out-of-range position `N` and
  dropped), remembers for each compacted entry the position it came from, and then writes every compacted entry back to
  that position in a buffer of zeros.  The stages below are the operations in the order the program applies them.
-/
import proofs.«142415_j64252710748372_1_alg».proof.Proof.Gen.ReferenceIdeal

noncomputable section

namespace Cert.ReferenceIdeal.Stages

open Cert.ReferenceIdeal Cert.ReferenceIdeal.Gen Idealize.ShloMosaic

variable {F : FTy → Type} [FloatOps F] {α : Type}

/-- The argument read in row-major order as a flat array. -/
def flat (x : FVec F S32x1024x1024 .f32) : FVec F S33554432 .f32 :=
  shapeCast S33554432 x shapeCasts_S32x1024x1024_S33554432

/-- The mask: one where `|y| > 1/2`. -/
def mask (y : FVec F S33554432 .f32) : IVec S33554432 1 :=
  cmpf .ogt (Host.absf y) (broadcastInDim S33554432 ![] bcast_S_S33554432 (constant S_ .f32 0x3F000000#32))

/-- The inclusive running count of a mask, as 32-bit words: a window of the whole length, padded on the left. -/
def csum (k : IVec S33554432 1) : IVec S33554432 32 :=
  Host.reduceWindow IntOp.addi ![33554432] ![1] ![33554431] ![0] (extui 32 k natLt_1_32)
    (broadcastInDim S_ ![] bcast_S_S_ (constantI S_ 32 0#32))
    reduceWindows_S33554432_S33554432_w33554432s1p33554431_0 h_S_

/-- The destination of each entry: its running count less one where the mask is set, the length `N` elsewhere. -/
def slot (k : IVec S33554432 1) : IVec S33554432 32 :=
  select k (subi (csum k) (broadcastInDim S33554432 ![] bcast_S_S33554432 (constantI S_ 32 1#32)))
    (broadcastInDim S33554432 ![] bcast_S_S33554432 (constantI S_ 32 33554432#32))

/-- A negative position counts from the end: `w + N` where `w < 0`. -/
def wrap (w : IVec S33554432 32) : IVec S33554432 32 :=
  select (cmpi .slt w (broadcastInDim S33554432 ![] bcast_S_S33554432 (constantI S_ 32 0#32)))
    (addi w (broadcastInDim S33554432 ![] bcast_S_S33554432 (constantI S_ 32 33554432#32))) w

/-- The positions as a column of one-component index vectors. -/
def col (w : IVec S33554432 32) : IVec S33554432x1 32 :=
  broadcastInDim S33554432x1 ![0] bcast_S33554432_S33554432x1_0 w

/-- `z` with `u n` written at position `w n` for every `n`, a position outside `[0, N)` dropped. -/
def setAt (z : S33554432.Idx → α) (w : IVec S33554432 32) (u : S33554432.Idx → α) : S33554432.Idx → α :=
  Host.scatter scatter_S33554432_S33554432x1_S33554432_n_0_0_1 (fun _ b => b) z (col (wrap w)) u

/-- The float zeros and the integer zeros the compaction writes into. -/
def zerosF : FVec F S33554432 .f32 :=
  broadcastInDim S33554432 ![] bcast_S_S33554432 (constant S_ .f32 0x00000000#32)
def zerosI : IVec S33554432 32 :=
  broadcastInDim S33554432 ![] bcast_S_S33554432 (constantI S_ 32 0#32)

/-- How many entries the mask keeps. -/
def nnz (k : IVec S33554432 1) : IVec S_ 32 :=
  Host.reduce IntOp.addi (extui 32 k natLt_1_32) (constantI S_ 32 0#32) reducesTo_S33554432_S_d0 h_S_

/-- Where compacted entry `n` goes back to: the position it came from while `n` is below the number kept, `N`
    (dropped) from there on. -/
def back (k : IVec S33554432 1) : IVec S33554432 32 :=
  select (cmpi .slt (iotaInDim S33554432 32 0) (broadcastInDim S33554432 ![] bcast_S_S33554432 (nnz k)))
    (setAt zerosI (slot k) (iotaInDim S33554432 32 0))
    (broadcastInDim S33554432 ![] bcast_S_S33554432 (constantI S_ 32 33554432#32))

/-- Compaction of `y` under the mask `k` into `z'`, then every compacted entry written back into `z`. -/
def roundTrip (k : IVec S33554432 1) (z' z y : S33554432.Idx → α) : S33554432.Idx → α :=
  setAt z (back k) (setAt z' (slot k) y)

/-- The reference's result. -/
def out (x : FVec F S32x1024x1024 .f32) : FVec F S32x1024x1024 .f32 :=
  shapeCast S32x1024x1024 (roundTrip (mask (flat x)) zerosF zerosF (flat x)) shapeCasts_S33554432_S32x1024x1024

end Cert.ReferenceIdeal.Stages

end
-- ==== Proof.RefRun.lean ====
/-
  The reference program run: its @main is a straight line of host operations (the functions it calls unfolded at
  their calls), so every weakly fair execution terminates with each buffer at the operations' composed term of the
  argument; the result buffer's term is `Stages.out` of the argument, and the argument is unchanged.
-/
import proofs.«142415_j64252710748372_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's sixty-one operations in order, the three calls unfolded at their sites. An operation of a called function
    is written over the buffers its call names, with the plain builder: the program's typed builder moves the function's
    contents along each buffer's type equation, which is reflexive at these literal buffers, so the move is the
    identity. The flattening; the mask (absolute value, one half and its broadcast, the comparison); the running
    count (the mask widened to 32 bits, then the inner function's zero, its rank-zero broadcast and the window sum
    over the whole length padded on the left); the count less one (the one, its broadcast, the subtraction); the
    length `N` and the first selection (the scalar converted to its own type, broadcast, the select): the
    destinations. Then the float zeros, the destinations wrapped (zero and `N` broadcast, the comparison, the sum,
    the select), made a column, and the first scatter: the compaction of the flat argument. The same over the integer
    zeros and the iota: the compaction of the positions. The number kept (the mask widened, the zero, the sum over the
    whole axis), its broadcast against a second iota, `N` and the second selection: where each compacted entry goes
    back to. At last float zeros, those positions wrapped and made a column, the second scatter of the compacted
    entries, and the cast back to three axes. -/
abbrev ops : List (HloOp τ sig (Elt F)) :=
  [ reshape main_arg0 main_v0 rfl shapeCasts_S32x1024x1024_S33554432,
    unary main_v0 main_v1 Host.absf,
    nullary main_cst (constant S_ .f32 0x3F000000#32),
    unary main_cst main_v2 (broadcastInDim S33554432 ![] bcast_S_S33554432),
    binary main_v1 main_v2 main_v3 (cmpf .ogt),
    unary main_v3 main_call0_v0 (extui 32 · natLt_1_32),
    nullary main_call0_call0_c (constantI S_ 32 0#32),
    unary main_call0_call0_c main_call0_call0_v0 (broadcastInDim S_ ![] bcast_S_S_),
    binary main_call0_v0 main_call0_call0_v0 main_v4 (fun x v => Host.reduceWindow IntOp.addi ![33554432] ![1] ![33554431] ![0] x v reduceWindows_S33554432_S33554432_w33554432s1p33554431_0 h_S_),
    nullary main_c (constantI S_ 32 1#32),
    unary main_c main_v5 (broadcastInDim S33554432 ![] bcast_S_S33554432),
    binary main_v4 main_v5 main_v6 subi,
    nullary main_c_0 (constantI S_ 32 33554432#32),
    unary main_c_0 main_call1_v0 id,
    unary main_call1_v0 main_call1_v1 (broadcastInDim S33554432 ![] bcast_S_S33554432),
    ternary main_v3 main_v6 main_call1_v1 main_v7 select,
    nullary main_cst_1 (constant S_ .f32 0x00000000#32),
    unary main_cst_1 main_v8 (broadcastInDim S33554432 ![] bcast_S_S33554432),
    nullary main_c_2 (constantI S_ 32 0#32),
    unary main_c_2 main_v9 (broadcastInDim S33554432 ![] bcast_S_S33554432),
    binary main_v7 main_v9 main_v10 (cmpi .slt),
    nullary main_c_3 (constantI S_ 32 33554432#32),
    unary main_c_3 main_v11 (broadcastInDim S33554432 ![] bcast_S_S33554432),
    binary main_v7 main_v11 main_v12 addi,
    ternary main_v10 main_v12 main_v7 main_v13 select,
    unary main_v13 main_v14 (broadcastInDim S33554432x1 ![0] bcast_S33554432_S33554432x1_0),
    ternary main_v8 main_v14 main_v0 main_v15 (fun x i u => Host.scatter scatter_S33554432_S33554432x1_S33554432_n_0_0_1 (fun _ b => b) x i u),
    nullary main_c_4 (constantI S_ 32 0#32),
    unary main_c_4 main_v16 (broadcastInDim S33554432 ![] bcast_S_S33554432),
    nullary main_v17 (iotaInDim S33554432 32 0),
    nullary main_c_5 (constantI S_ 32 0#32),
    unary main_c_5 main_v18 (broadcastInDim S33554432 ![] bcast_S_S33554432),
    binary main_v7 main_v18 main_v19 (cmpi .slt),
    nullary main_c_6 (constantI S_ 32 33554432#32),
    unary main_c_6 main_v20 (broadcastInDim S33554432 ![] bcast_S_S33554432),
    binary main_v7 main_v20 main_v21 addi,
    ternary main_v19 main_v21 main_v7 main_v22 select,
    unary main_v22 main_v23 (broadcastInDim S33554432x1 ![0] bcast_S33554432_S33554432x1_0),
    ternary main_v16 main_v23 main_v17 main_v24 (fun x i u => Host.scatter scatter_S33554432_S33554432x1_S33554432_n_0_0_1 (fun _ b => b) x i u),
    unary main_v3 main_v25 (extui 32 · natLt_1_32),
    nullary main_c_7 (constantI S_ 32 0#32),
    binary main_v25 main_c_7 main_v26 (fun x v => Host.reduce IntOp.addi x v reducesTo_S33554432_S_d0 h_S_),
    nullary main_v27 (iotaInDim S33554432 32 0),
    unary main_v26 main_v28 (broadcastInDim S33554432 ![] bcast_S_S33554432),
    binary main_v27 main_v28 main_v29 (cmpi .slt),
    nullary main_c_8 (constantI S_ 32 33554432#32),
    unary main_c_8 main_call2_v0 id,
    unary main_call2_v0 main_call2_v1 (broadcastInDim S33554432 ![] bcast_S_S33554432),
    ternary main_v29 main_v24 main_call2_v1 main_v30 select,
    nullary main_cst_9 (constant S_ .f32 0x00000000#32),
    unary main_cst_9 main_v31 (broadcastInDim S33554432 ![] bcast_S_S33554432),
    nullary main_c_10 (constantI S_ 32 0#32),
    unary main_c_10 main_v32 (broadcastInDim S33554432 ![] bcast_S_S33554432),
    binary main_v30 main_v32 main_v33 (cmpi .slt),
    nullary main_c_11 (constantI S_ 32 33554432#32),
    unary main_c_11 main_v34 (broadcastInDim S33554432 ![] bcast_S_S33554432),
    binary main_v30 main_v34 main_v35 addi,
    ternary main_v33 main_v35 main_v30 main_v36 select,
    unary main_v36 main_v37 (broadcastInDim S33554432x1 ![0] bcast_S33554432_S33554432x1_0),
    ternary main_v31 main_v37 main_v15 main_v38 (fun x i u => Host.scatter scatter_S33554432_S33554432x1_S33554432_n_0_0_1 (fun _ b => b) x i u),
    reshape main_v38 main_v39 rfl shapeCasts_S33554432_S32x1024x1024 ]

attribute [local irreducible] Host.scatter Host.reduce Host.reduceWindow in
set_option maxRecDepth 8192 in
/-- @main is that straight line: the three functions' definitions unfolded at their calls and the records at their
    fields, both sides are one chain of `hlo` steps once sequencing is reassociated; at a called function's
    operation the typed builder unfolds to the plain one, its two transports along a reflexive type equation the
    identity. The window sum, the sum over the whole axis and the scatters' fold range over all `N` elements and are
    kept folded: the comparison never looks inside them. -/
theorem main_eq (c : Dev nD) : main (F := F) c = seq ops := by
  simp only [main, fn_cumsum.body, fn_cumsum_0.body, fn_where.body, seq, bind_assoc, pure_bind]
  rfl

attribute [local irreducible] Host.scatter Host.reduce Host.reduceWindow in
set_option maxRecDepth 8192 in
set_option maxHeartbeats 400000 in
/-- The fold at the result buffer is `Stages.out` of the argument: each operation's result is read at its own buffer
    as its function's value and at any other buffer as what was there (one pass, every shared intermediate visited
    once), which leaves the operations' composed term of the argument; the stages are that term's subterms, named.
    The three folds over all `N` elements stay folded throughout. -/
theorem out_eq (V : Valuation τ sig (Elt F)) :
    after ops V (main_v39 : DevRef τ sig) = Stages.out (V (main_arg0 : DevRef τ sig)) := by
  after_results_simp
  rfl

/-- No operation writes the argument's buffer. -/
theorem arg0_eq (V : Valuation τ sig (Elt F)) :
    after ops V (main_arg0 : DevRef τ sig) = V (main_arg0 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub .., unary_bufs_sub .., nullary_bufs_sub .., unary_bufs_sub .., binary_bufs_sub ..,
    unary_bufs_sub .., nullary_bufs_sub .., unary_bufs_sub .., binary_bufs_sub ..,
    nullary_bufs_sub .., unary_bufs_sub .., binary_bufs_sub .., nullary_bufs_sub ..,
    unary_bufs_sub .., unary_bufs_sub .., ternary_bufs_sub ..,
    nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..,
    nullary_bufs_sub .., unary_bufs_sub .., nullary_bufs_sub .., nullary_bufs_sub .., unary_bufs_sub .., binary_bufs_sub ..,
    nullary_bufs_sub .., unary_bufs_sub .., binary_bufs_sub .., ternary_bufs_sub .., unary_bufs_sub .., ternary_bufs_sub ..,
    unary_bufs_sub .., nullary_bufs_sub .., binary_bufs_sub .., nullary_bufs_sub .., unary_bufs_sub .., binary_bufs_sub ..,
    nullary_bufs_sub ..,
    unary_bufs_sub .., unary_bufs_sub .., ternary_bufs_sub ..,
    nullary_bufs_sub .., unary_bufs_sub .., nullary_bufs_sub .., unary_bufs_sub .., binary_bufs_sub ..,
    nullary_bufs_sub .., unary_bufs_sub .., binary_bufs_sub .., ternary_bufs_sub .., unary_bufs_sub .., ternary_bufs_sub ..,
    reshape_bufs_sub ..⟩

/-- Every weakly fair execution of the reference terminates with its result at `Stages.out` of the argument and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v39) = Stages.out (m ((c.tc : Thread nD τ).loc main_arg0))
      ∧ r.2.mem ((c.tc : Thread nD τ).loc main_arg0) = m ((c.tc : Thread nD τ).loc main_arg0) := by
  exact (θ_run defs _ _).mono (fun _ h c => ⟨(h c main_v39).trans (out_eq _), (h c main_arg0).trans (arg0_eq _)⟩)
    (run_seq scopedRefs_eq scopedSems_eq defs main (fun _ => ops) main_eq (fun _ => ops_sub) m ρ)

end Cert.ReferenceIdeal.RefRun

end
-- ==== Proof.LibScatterSet.lean ====
/-
  `stablehlo.scatter` of a flat array at a column of one-component index vectors, its body returning the update
  (`z.at[idx].set(u)` of flat arrays, out-of-range positions dropped), READ AT ONE POSITION: an operand `[N]`, scatter
  indices `[M, 1]`, updates `[M]`.  Update `n` lands at the position `idx[n, 0]` read as a signed integer when that is
  inside `[0, N)` and is dropped otherwise.  So a position that exactly one update names holds that update, and a position
  no update names keeps the operand's entry.
-/
import Idealize.ShloMosaic.Lib.ValueIdx

noncomputable section

namespace Idealize.ShloMosaic.ScatterSet

open Idealize.ShloMosaic Idealize.ShloMosaic.ValueIdx

variable {α : Type}

/-! ## A left fold of position-wise writes, read at one position

The scatter is a left fold of steps, each either leaving the array alone or overwriting one position. Read at a fixed
position `k`, only two facts about a step matter: a step whose landing position `g n` is not `k` leaves the entry at
`k` alone (`hskip`), and a step landing at `k` puts its own value `v n` there (`hput`). -/

section Fold
variable {ι κ β : Type} (g : ι → Option κ) (v : ι → β) (step : (κ → β) → ι → κ → β)

/-- If no step of the list lands at `k`, the fold keeps the starting entry at `k`. -/
theorem foldl_keep (k : κ) (hskip : ∀ r n, g n ≠ some k → step r n k = r k) :
    ∀ (l : List ι) (x : κ → β), (∀ n ∈ l, g n ≠ some k) → l.foldl step x k = x k := by
  intro l
  induction l with
  | nil => intro x _; rfl
  | cons n l ih =>
    intro x hl
    rw [List.foldl_cons, ih (step x n) (fun m hm => hl m (List.mem_cons_of_mem _ hm))]
    exact hskip x n (hl n List.mem_cons_self)

/-- If `n₀` is in the list and lands at `k`, and it is the only member landing there, the fold has `v n₀` at `k`:
    either `n₀` occurs again in the tail (induction), or the head is `n₀` and nothing in the tail lands at `k`. -/
theorem foldl_write (k : κ) (hskip : ∀ r n, g n ≠ some k → step r n k = r k)
    (hput : ∀ r n, g n = some k → step r n k = v n) :
    ∀ (l : List ι) (x : κ → β) (n₀ : ι), n₀ ∈ l → g n₀ = some k → (∀ n ∈ l, g n = some k → n = n₀) →
      l.foldl step x k = v n₀ := by
  intro l
  induction l with
  | nil => intro x n₀ h; exact absurd h List.not_mem_nil
  | cons n l ih =>
    intro x n₀ hmem hg huniq
    rw [List.foldl_cons]
    by_cases htail : n₀ ∈ l
    · exact ih (step x n) n₀ htail hg (fun m hm => huniq m (List.mem_cons_of_mem _ hm))
    · have hn : n₀ = n := by
        rcases List.mem_cons.1 hmem with h | h
        · exact h
        · exact absurd h htail
      subst hn
      rw [foldl_keep g step k hskip l (step x n₀) (fun m hm hgm => htail (huniq m (List.mem_cons_of_mem _ hm) hgm ▸ hm))]
      exact hput x n₀ hg

end Fold

/-! ## The scatter whose body returns the update, at any dimension numbers, read at one position -/

section General
variable {s si u : Shape} {w : Nat}

/-- A position no update index lands at keeps the operand's entry. -/
theorem scatter_keep (d : ScatterDims s si u) (x : s.Idx → α) (idx : IVec si w) (upd : u.Idx → α) (k : s.Idx)
    (h : ∀ j : u.Idx, d.resultIdx? j idx ≠ some k) :
    Host.scatter d (fun _ b => b) x idx upd k = x k := by
  unfold Host.scatter
  refine foldl_keep (g := fun n : Fin u.numel => d.resultIdx? (u.rowMajor.symm n) idx) _ k ?_ _ x
    (fun n _ => h _)
  intro r n hn
  dsimp only at hn ⊢
  generalize d.resultIdx? (u.rowMajor.symm n) idx = o at hn ⊢
  cases o with
  | none => rfl
  | some i =>
    dsimp only
    rw [if_neg]
    intro hk
    exact hn (by rw [hk])

/-- A position exactly one update index `j₀` lands at holds that update. Every flat update number is the row-major
    number of its index, so the fold over the numbers is a fold over the indices; the row-major map's value is never
    needed, only that it is a bijection. -/
theorem scatter_write (d : ScatterDims s si u) (x : s.Idx → α) (idx : IVec si w) (upd : u.Idx → α) (k : s.Idx)
    (j₀ : u.Idx) (h₀ : d.resultIdx? j₀ idx = some k) (huniq : ∀ j : u.Idx, d.resultIdx? j idx = some k → j = j₀) :
    Host.scatter d (fun _ b => b) x idx upd k = upd j₀ := by
  unfold Host.scatter
  refine (foldl_write (g := fun n : Fin u.numel => d.resultIdx? (u.rowMajor.symm n) idx)
    (v := fun n : Fin u.numel => upd (u.rowMajor.symm n)) _ k ?_ ?_ _ x (u.rowMajor j₀) (List.mem_finRange _) ?_ ?_).trans ?_
  · intro r n hn
    dsimp only at hn ⊢
    generalize d.resultIdx? (u.rowMajor.symm n) idx = o at hn ⊢
    cases o with
    | none => rfl
    | some i =>
      dsimp only
      rw [if_neg]
      intro hk
      exact hn (by rw [hk])
  · intro r n hn
    dsimp only at hn ⊢
    generalize d.resultIdx? (u.rowMajor.symm n) idx = o at hn ⊢
    cases o with
    | none => exact absurd hn (by simp)
    | some i =>
      dsimp only
      rw [if_pos (Option.some.inj hn).symm]
  · rw [Equiv.symm_apply_apply]
    exact h₀
  · intro n _ hn
    rw [← huniq _ hn, Equiv.apply_symm_apply]
  · rw [Equiv.symm_apply_apply]

end General

/-- The dimension numbers of `z.at[idx].set(u)` on flat arrays: operand `[N]`, indices `[M, 1]`, updates `[M]`. -/
abbrev setDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The operand's one axis is an inserted window axis, so the window coordinate on it is `0`. -/
theorem setDims_window {N M : Nat} (wf : ScatterDims.WF ⟨1, ![N]⟩ ⟨2, ![M, 1]⟩ ⟨1, ![M]⟩ [] [0] [0] 1)
    (j : (⟨1, ![M]⟩ : Shape).Idx) : (setDims N M wf).window j 0 = 0 := by
  unfold ScatterDims.window
  rw [dif_neg]
  intro h
  have := (List.mem_filter.1 h).2
  simp at this

/-- The start on the operand's one axis for update `j` is `idx[j, 0]` read as a signed integer. -/
theorem setDims_start {N M w : Nat} (wf : ScatterDims.WF ⟨1, ![N]⟩ ⟨2, ![M, 1]⟩ ⟨1, ![M]⟩ [] [0] [0] 1)
    (j : (⟨1, ![M]⟩ : Shape).Idx) (idx : IVec ⟨2, ![M, 1]⟩ w) :
    (setDims N M wf).start j idx 0 = (idx (ix2 (j 0) 0)).toInt := by
  unfold ScatterDims.start
  rw [dif_pos (show (0 : Fin 1) ∈ (setDims N M wf).scatterDimsToOperandDims from List.mem_singleton.mpr rfl)]
  have hsi : (setDims N M wf).siIdx j ⟨List.idxOf (0 : Fin 1) (setDims N M wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Update `j` lands at position `i` exactly when `idx[j, 0]`, read signed, is `i`: the landing position is start plus
    window coordinate, that is `idx[j, 0] + 0`, kept when it lies in `[0, N)`. -/
theorem setDims_resultIdx?_iff {N M w : Nat} (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : Fin N) :
    (setDims N M wf).resultIdx? j idx = some (ix1 i) ↔ (idx (ix2 (j 0) 0)).toInt = (i.val : Int) := by
  unfold ScatterDims.resultIdx?
  constructor
  · intro h
    split at h
    · rename_i hin
      have h0 := congrFun (Option.some.inj h) 0
      have hv := congrArg Fin.val h0
      have hb := hin 0
      rw [setDims_window, setDims_start] at hb
      simp only [setDims_window, setDims_start] at hv
      change ((idx (ix2 (j 0) 0)).toInt + ((0 : Nat) : Int)).toNat = i.val at hv
      omega
    · exact absurd h (by simp)
  · intro h
    have hin : ∀ a, 0 ≤ (setDims N M wf).start j idx a + (setDims N M wf).window j a ∧
        (setDims N M wf).start j idx a + (setDims N M wf).window j a < (⟨1, ![N]⟩ : Shape).size a := by
      intro a
      obtain rfl : a = 0 := Subsingleton.elim _ _
      rw [setDims_window, setDims_start, h]
      have : (⟨1, ![N]⟩ : Shape).size 0 = N := rfl
      rw [this]
      have := i.isLt
      omega
    rw [dif_pos hin]
    congr 1
    funext a
    obtain rfl : a = 0 := Subsingleton.elim _ _
    refine Fin.ext ?_
    show ((setDims N M wf).start j idx 0 + (setDims N M wf).window j 0).toNat = i.val
    rw [setDims_window, setDims_start, h]
    omega

/-- A position `i` that exactly one update `n₀` names holds that update after the scatter. -/
theorem scatter_set_hit {N M w : Nat} (wf : ScatterDims.WF ⟨1, ![N]⟩ ⟨2, ![M, 1]⟩ ⟨1, ![M]⟩ [] [0] [0] 1)
    (x : (⟨1, ![N]⟩ : Shape).Idx → α) (idx : IVec ⟨2, ![M, 1]⟩ w) (upd : (⟨1, ![M]⟩ : Shape).Idx → α)
    (i : Fin N) (n₀ : Fin M) (h₀ : (idx (ix2 n₀ 0)).toInt = (i.val : Int))
    (huniq : ∀ n : Fin M, (idx (ix2 n 0)).toInt = (i.val : Int) → n = n₀) :
    Host.scatter (setDims N M wf) (fun _ b => b) x idx upd (ix1 i) = upd (ix1 n₀) := by
  refine scatter_write (setDims N M wf) x idx upd (ix1 i) (ix1 n₀) ((setDims_resultIdx?_iff wf (ix1 n₀) idx i).2 h₀) ?_
  intro j hj
  have h1 : j 0 = n₀ := huniq (j 0) ((setDims_resultIdx?_iff wf j idx i).1 hj)
  exact (eq_ix1 j).trans (congrArg ix1 h1)

/-- A position `i` that no update names keeps the operand's entry. -/
theorem scatter_set_miss {N M w : Nat} (wf : ScatterDims.WF ⟨1, ![N]⟩ ⟨2, ![M, 1]⟩ ⟨1, ![M]⟩ [] [0] [0] 1)
    (x : (⟨1, ![N]⟩ : Shape).Idx → α) (idx : IVec ⟨2, ![M, 1]⟩ w) (upd : (⟨1, ![M]⟩ : Shape).Idx → α)
    (i : Fin N) (hmiss : ∀ n : Fin M, (idx (ix2 n 0)).toInt ≠ (i.val : Int)) :
    Host.scatter (setDims N M wf) (fun _ b => b) x idx upd (ix1 i) = x (ix1 i) := by
  exact scatter_keep (setDims N M wf) x idx upd (ix1 i)
    (fun j hj => hmiss (j 0) ((setDims_resultIdx?_iff wf j idx i).1 hj))

end Idealize.ShloMosaic.ScatterSet

end
-- ==== Proof.LibWordCount.lean ====
/-
  Sums of 32-bit words that are each zero or one, as COUNTS.  For a flat array `x : [N]` of words with
  `x k = 1` exactly where a predicate `p k` holds and `0` elsewhere, and `N` below `2 ^ 32` (no sum wraps):
  the inclusive running sum (a `reduce_window` of width `N` padded `N - 1` on the left, what a cumulative sum lowers
  to) at position `j` is the number of `k ≤ j` with `p k`, and the sum of the whole array is the number of `k < N`
  with `p k` (`Nat.count`).
-/
import Idealize.ShloMosaic.Lib.ValueIdx
import Idealize.ShloMosaic.Lib.ValueIdxRank1
import Idealize.ShloMosaic.Lib.WordSum
import Mathlib.Data.Nat.Count
import Mathlib.Algebra.BigOperators.Fin

noncomputable section

namespace Idealize.ShloMosaic.WordCount

open Idealize.ShloMosaic Idealize.ShloMosaic.ValueIdx

/-- A left fold by word addition over a list is the start plus the sum of the terms. -/
theorem foldl_addi_list {ι : Type} (g : ι → BitVec 32) : ∀ (l : List ι) (v : BitVec 32),
    l.foldl (fun r n => IntOp.addi r (g n)) v = v + (l.map g).sum
  | [], v => by simp
  | a :: l, v => by
    rw [List.foldl_cons, foldl_addi_list g l, List.map_cons, List.sum_cons]
    show (v + g a) + _ = _
    rw [add_assoc]

/-- A left fold by word addition over all of `Fin M` is the start plus the sum over `Fin M`. -/
theorem foldl_addi_finRange {M : Nat} (g : Fin M → BitVec 32) (v : BitVec 32) :
    (List.finRange M).foldl (fun r n => IntOp.addi r (g n)) v = v + ∑ n : Fin M, g n := by
  rw [foldl_addi_list, Fin.sum_univ_def]

/-- A fold by word addition over a finite set is the start plus the sum over the set. -/
theorem fold_addi_eq_sum {ι : Type} (S : Finset ι) (g : ι → BitVec 32) (v : BitVec 32) :
    S.fold IntOp.addi v g = v + ∑ i ∈ S, g i := by
  induction S using Finset.cons_induction with
  | empty => simp
  | cons a S ha ih =>
    rw [Finset.fold_cons, Finset.sum_cons, ih]
    show g a + (v + _) = v + (g a + _)
    rw [add_left_comm]

/-- The number of `k < m` with `p k` is the sum of the indicators. -/
theorem sum_ite_eq_count (p : Nat → Prop) [DecidablePred p] (m : Nat) :
    ∑ k ∈ Finset.range m, (if p k then 1 else 0 : Nat) = Nat.count p m := by
  rw [Nat.count_eq_card_filter_range, Finset.card_filter]

/-- A sum of at most `N < 2 ^ 32` words that are each zero or one has the sum of the indicators as its value. -/
theorem toNat_sum_ite {N : Nat} (hN : N < 2 ^ 32) (q : Fin N → Prop) [DecidablePred q] :
    (∑ k : Fin N, (if q k then 1#32 else 0#32)).toNat = ∑ k : Fin N, (if q k then 1 else 0 : Nat) := by
  have e : ∀ k : Fin N, (if q k then 1#32 else 0#32).toNat = (if q k then 1 else 0 : Nat) := fun k => by
    split_ifs <;> rfl
  rw [WordSum.toNat_sum]
  · exact Finset.sum_congr rfl fun k _ => e k
  · calc ∑ k : Fin N, (if q k then 1#32 else 0#32).toNat ≤ ∑ _k : Fin N, 1 :=
          Finset.sum_le_sum fun k _ => by rw [e k]; split_ifs <;> omega
      _ = N := by simp
      _ < 2 ^ 32 := hN

/-- A sum over `k < n = (P - j) + (j + 1)` of terms that vanish while `j + k < P` and are `F (j + k - P)` from
    there on is the sum of `F` over `m < j + 1`: the nonzero terms re-indexed by `m = j + k - P`. -/
theorem sum_range_shift (P j n : Nat) (hn : n = (P - j) + (j + 1)) (hj : j ≤ P) (F : Nat → Nat) :
    ∑ k ∈ Finset.range n, (if P ≤ j + k then F (j + k - P) else 0) = ∑ m ∈ Finset.range (j + 1), F m := by
  subst hn
  rw [Finset.sum_range_add, Finset.sum_eq_zero (fun k hk => if_neg (by have := Finset.mem_range.1 hk; omega)), zero_add]
  refine Finset.sum_congr rfl fun m _ => ?_
  rw [if_pos (by omega)]
  congr 1
  omega

/-- The inclusive running sum at `j` counts the `k ≤ j` with `p k`. -/
theorem cumsum_toNat {N P : Nat} (hP : P + 1 = N) (hN : N < 2 ^ 32) (p : Nat → Prop) [DecidablePred p]
    (x : IVec ⟨1, ![N]⟩ 32) (hx : ∀ (k : Nat) (h : k < N), x (ix1 ⟨k, h⟩) = if p k then 1#32 else 0#32)
    (init : IVec ⟨0, ![]⟩ 32) (hinit : init ix0 = 0#32)
    (h : (⟨1, ![N]⟩ : Shape).ReduceWindows (![N] : Fin 1 → Nat) ![1] ![P] ![0] ⟨1, ![N]⟩)
    (hu : 0 < (⟨0, ![]⟩ : Shape).numel) (j : Fin N) :
    (Host.reduceWindow IntOp.addi (![N] : Fin 1 → Nat) ![1] ![P] ![0] x init h hu (ix1 j)).toNat
      = Nat.count p (j.val + 1) := by
  have hv : init (Shape.Idx.first hu) = 0 := by rw [eq_ix0 (Shape.Idx.first hu), hinit]; rfl
  have hjP : j.val ≤ P := by have := j.isLt; omega
  unfold Host.reduceWindow
  simp only []
  rw [foldl_addi_finRange, hv, zero_add, ← Equiv.sum_comp (Shape.rowMajor ⟨1, ![N]⟩),
    ← Equiv.sum_comp (idxEquiv1 (n := N)).symm]
  -- term `k` of the window at `j` is `x (j + k - P)` when `P ≤ j + k`, and the zero padding otherwise
  refine (congrArg BitVec.toNat (Finset.sum_congr rfl (g := fun k : Fin N =>
    if P ≤ j.val + k.val ∧ p (j.val + k.val - P) then 1#32 else 0#32) fun k _ => ?_)).trans ?_
  · simp only [Equiv.symm_apply_apply]
    have hk := k.isLt
    by_cases hc : P ≤ j.val + k.val
    · rw [dif_pos (by
        intro a
        obtain rfl : a = 0 := Subsingleton.elim _ _
        show P ≤ j.val * 1 + k.val ∧ j.val * 1 + k.val - P < N
        omega)]
      rw [ite_and, if_pos hc, ← hx (j.val + k.val - P) (by omega)]
      congr 1
      funext a
      obtain rfl : a = 0 := Subsingleton.elim _ _
      apply Fin.ext
      show j.val * 1 + k.val - P = j.val + k.val - P
      omega
    · rw [ite_and, if_neg hc, dif_neg]
      · rfl
      · intro hall
        have h0 := (hall 0).1
        change P ≤ j.val * 1 + k.val at h0
        omega
  · rw [toNat_sum_ite hN (fun k : Fin N => P ≤ j.val + k.val ∧ p (j.val + k.val - P)),
      Fin.sum_univ_eq_sum_range (fun k => if P ≤ j.val + k ∧ p (j.val + k - P) then 1 else 0) N]
    simp only [ite_and]
    rw [sum_range_shift P j.val N (by omega) hjP (fun m => if p m then 1 else 0), sum_ite_eq_count]

/-- The sum of the whole array counts the `k < N` with `p k`. -/
theorem total_toNat {N : Nat} (hN : N < 2 ^ 32) (p : Nat → Prop) [DecidablePred p]
    (x : IVec ⟨1, ![N]⟩ 32) (hx : ∀ (k : Nat) (h : k < N), x (ix1 ⟨k, h⟩) = if p k then 1#32 else 0#32)
    (init : IVec ⟨0, ![]⟩ 32) (hinit : init ix0 = 0#32)
    (h : (⟨1, ![N]⟩ : Shape).ReducesTo [0] ⟨0, ![]⟩) (hu : 0 < (⟨0, ![]⟩ : Shape).numel) :
    (Host.reduce IntOp.addi x init h hu ix0).toNat = Nat.count p N := by
  rw [Host.reduce_eq_fold, eq_ix0 (Shape.Idx.first hu), hinit,
    Finset.filter_true_of_mem (fun i _ => (eq_ix0 (h.drop i))), fold_addi_eq_sum,
    show (0#32 : BitVec 32) = 0 from rfl, zero_add,
    ← Equiv.sum_comp (idxEquiv1 (n := N)).symm x,
    show ∑ i : Fin N, x (idxEquiv1.symm i) = ∑ k : Fin N, (if p k.val then 1#32 else 0#32) from
      Finset.sum_congr rfl fun k _ => hx k.val k.isLt,
    toNat_sum_ite hN (fun k => p k.val), Fin.sum_univ_eq_sum_range (fun k => if p k then 1 else 0) N,
    sum_ite_eq_count]

end Idealize.ShloMosaic.WordCount

end
-- ==== Proof.Compact.lean ====
/-
  Compaction followed by writing back is masking.  Fix a mask `k` over the flat array of length `N = 33554432` and call
  entry `n` KEPT when `k n = 1`.  The number of kept entries below `n` is the RANK `c n`.  The compaction sends a kept
  entry `i` to position `c i` (its inclusive running count less one) and every other entry to `N`, which is dropped;
  kept entries have distinct ranks, so position `c i` holds entry `i` and its origin `i`.  Every position below the number
  `c N` of kept entries is the rank of exactly one kept entry, so writing position `n < c N` back to its remembered origin
  (and dropping the rest) puts entry `i` back at `i` for every kept `i` and touches no other position: the result is the
  entry where the mask is set and the untouched buffer elsewhere.
-/
import proofs.«142415_j64252710748372_1_alg».proof.Proof.RefTerm
import proofs.«142415_j64252710748372_1_alg».proof.Proof.LibScatterSet
import proofs.«142415_j64252710748372_1_alg».proof.Proof.LibWordCount
import Mathlib.Data.Nat.Count

noncomputable section

namespace Cert.ReferenceIdeal.Compact

open Cert.ReferenceIdeal Cert.ReferenceIdeal.Gen Cert.ReferenceIdeal.Stages Idealize.ShloMosaic
  Idealize.ShloMosaic.ValueIdx Idealize.ShloMosaic.ScatterSet Idealize.ShloMosaic.WordCount

/-! ## Words -/

theorem bit_cases (b : BitVec 1) : b = 1#1 ∨ b = 0#1 := by
  revert b; decide

/-- A mask bit widened to 32 bits is the word one or the word zero. -/
theorem setWidth_bit (b : BitVec 1) : b.setWidth 32 = if b = 1#1 then 1#32 else 0#32 := by
  revert b; decide

/-- A word below `2 ^ 31` read signed is its unsigned value. -/
theorem toInt_small (a : BitVec 32) (ha : a.toNat < 2 ^ 31) : a.toInt = (a.toNat : Int) := by
  rw [BitVec.toInt_eq_toNat_cond]
  have : 2 * a.toNat < 4294967296 := by omega
  simp [this]

/-- The signed comparison of two words below `2 ^ 31` is the comparison of their values. -/
theorem slt_small (a b : BitVec 32) (ha : a.toNat < 2 ^ 31) (hb : b.toNat < 2 ^ 31) :
    IntOp.cmpi .slt a b = if a.toNat < b.toNat then 1#1 else 0#1 := by
  unfold IntOp.cmpi
  simp only [BitVec.slt, toInt_small a ha, toInt_small b hb]
  by_cases h : a.toNat < b.toNat
  · simp [h]
  · simp [h]

theorem ofNat_succ_sub_one (c : Nat) : BitVec.ofNat 32 (c + 1) - 1#32 = BitVec.ofNat 32 c := by
  apply BitVec.eq_of_toNat_eq
  simp [BitVec.toNat_sub]
  omega

theorem toNat_ofNat_small (n : Nat) (h : n < 2 ^ 32) : (BitVec.ofNat 32 n).toNat = n := by
  simp only [BitVec.toNat_ofNat]
  exact Nat.mod_eq_of_lt h

/-! ## Ranks -/

/-- Every number below the count of `p` under `M` is the rank of some `m < M` with `p m`. -/
theorem exists_rank (p : Nat → Prop) [DecidablePred p] (M : Nat) :
    ∀ n, n < Nat.count p M → ∃ m, m < M ∧ p m ∧ Nat.count p m = n := by
  induction M with
  | zero => intro n hn; simp at hn
  | succ M ih =>
    intro n hn
    rw [Nat.count_succ] at hn
    by_cases hlt : n < Nat.count p M
    · obtain ⟨m, hm, hp, hc⟩ := ih n hlt
      exact ⟨m, Nat.lt_succ_of_lt hm, hp, hc⟩
    · by_cases hpM : p M
      · simp [hpM] at hn
        exact ⟨M, Nat.lt_succ_self M, hpM, by omega⟩
      · simp [hpM] at hn
        omega

/-! ## The stages at a position -/

variable {α : Type} (k : IVec S33554432 1)

/-- Entry `n` is kept by the mask. -/
def kept (n : Nat) : Prop := ∃ h : n < 33554432, k (ix1 ⟨n, h⟩) = 1#1

instance keptDec : DecidablePred (kept k) := fun _ => Classical.propDecidable _

/-- The rank: how many kept entries lie below `n`. -/
abbrev rank (n : Nat) : Nat := Nat.count (kept k) n

theorem kept_iff (n : Nat) (h : n < 33554432) : kept k n ↔ k (ix1 ⟨n, h⟩) = 1#1 :=
  ⟨fun ⟨_, hk⟩ => hk, fun hk => ⟨h, hk⟩⟩

theorem rank_le (n : Nat) : rank k n ≤ n := Nat.count_le (kept k)

theorem rank_mono {a b : Nat} (h : a ≤ b) : rank k a ≤ rank k b := Nat.count_monotone _ h

theorem rank_lt_total (i : Nat) (hi : i < 33554432) (hk : kept k i) : rank k i < rank k 33554432 := by
  have h1 : rank k (i + 1) = rank k i + 1 := by
    unfold rank; rw [Nat.count_succ]; simp [hk]
  have h2 : rank k (i + 1) ≤ rank k 33554432 := rank_mono k (by omega)
  omega

/-- The widened mask is one exactly at the kept entries. -/
theorem mask_words (n : Nat) (h : n < 33554432) :
    extui 32 k natLt_1_32 (ix1 ⟨n, h⟩) = if kept k n then 1#32 else 0#32 := by
  show (k (ix1 ⟨n, h⟩)).setWidth 32 = _
  rw [setWidth_bit]
  by_cases hk : k (ix1 ⟨n, h⟩) = 1#1
  · rw [if_pos hk, if_pos ((kept_iff k n h).2 hk)]
  · rw [if_neg hk, if_neg (fun hh => hk ((kept_iff k n h).1 hh))]

/-- The running count at `j` is the rank of `j + 1`. -/
theorem csum_toNat (j : Fin 33554432) : (csum k (ix1 j)).toNat = rank k (j.val + 1) := by
  unfold csum
  exact cumsum_toNat (N := 33554432) (P := 33554431) rfl (by norm_num) (kept k) _ (mask_words k) _ rfl _ _ j

/-- The number of kept entries, as a word. -/
theorem nnz_toNat : (nnz k ix0).toNat = rank k 33554432 := by
  unfold nnz
  exact total_toNat (N := 33554432) (by norm_num) (kept k) _ (mask_words k) _ rfl _ _

/-- A kept entry's destination is its rank. -/
theorem slot_kept (j : Fin 33554432) (hj : kept k j.val) : slot k (ix1 j) = BitVec.ofNat 32 (rank k j.val) := by
  have hk : k (ix1 j) = 1#1 := (kept_iff k j.val j.isLt).1 hj
  have hc : csum k (ix1 j) = BitVec.ofNat 32 (rank k j.val + 1) := by
    apply BitVec.eq_of_toNat_eq
    have h1 : rank k (j.val + 1) = rank k j.val + 1 := by
      unfold rank; rw [Nat.count_succ]; simp [hj]
    have h2 := rank_le k j.val
    have h3 := j.isLt
    rw [csum_toNat, h1, toNat_ofNat_small _ (by omega)]
  show Scalar.select (k (ix1 j)) (IntOp.subi (csum k (ix1 j)) 1#32) 33554432#32 = _
  rw [hk, select_one, hc]
  exact ofNat_succ_sub_one _

/-- An entry that is not kept is sent to `N`. -/
theorem slot_drop (j : Fin 33554432) (hj : ¬ kept k j.val) : slot k (ix1 j) = 33554432#32 := by
  have hk : k (ix1 j) = 0#1 := by
    rcases bit_cases (k (ix1 j)) with h | h
    · exact absurd ((kept_iff k j.val j.isLt).2 h) hj
    · exact h
  show Scalar.select (k (ix1 j)) (IntOp.subi (csum k (ix1 j)) 1#32) 33554432#32 = _
  rw [hk, select_zero]

/-- A position word below `2 ^ 31` is not wrapped, and read signed it is its value. -/
theorem pos_toInt (w : IVec S33554432 32) (n : Fin 33554432) (hw : (w (ix1 n)).toNat < 2 ^ 31) :
    (col (wrap w) (ix2 n 0)).toInt = ((w (ix1 n)).toNat : Int) := by
  have hc : col (wrap w) (ix2 n 0) = wrap w (ix1 n) := by
    unfold col broadcastInDim
    congr 1
    funext a
    match a with
    | ⟨0, _⟩ => rfl
  have hwrap : wrap w (ix1 n) = w (ix1 n) := by
    show Scalar.select (IntOp.cmpi .slt (w (ix1 n)) 0#32) (IntOp.addi (w (ix1 n)) 33554432#32) (w (ix1 n)) = _
    rw [slt_small _ _ hw (by decide)]
    have : ¬ (w (ix1 n)).toNat < (0#32 : BitVec 32).toNat := by simp
    rw [if_neg this, select_zero]
  rw [hc, hwrap, toInt_small _ hw]

theorem setAt_eq (z : S33554432.Idx → α) (w : IVec S33554432 32) (u : S33554432.Idx → α) :
    setAt z w u = Host.scatter (setDims 33554432 33554432 scatter_S33554432_S33554432x1_S33554432_n_0_0_1_wf)
      (fun _ b => b) z (col (wrap w)) u := rfl

/-- After the compaction, position `rank i` holds the kept entry `i`. -/
theorem compact_kept (z' y : S33554432.Idx → α) (i : Fin 33554432) (hi : kept k i.val) :
    setAt z' (slot k) y (ix1 ⟨rank k i.val, lt_of_le_of_lt (rank_le k i.val) i.isLt⟩) = y (ix1 i) := by
  rw [setAt_eq]
  refine scatter_set_hit _ z' (col (wrap (slot k))) y ⟨rank k i.val, _⟩ i ?_ ?_
  · have h3 := i.isLt
    have h2 := rank_le k i.val
    rw [pos_toInt _ _ (by rw [slot_kept k i hi, toNat_ofNat_small _ (by omega)]; omega), slot_kept k i hi,
      toNat_ofNat_small _ (by omega)]
  · intro n hn
    have h3 := i.isLt
    have h2 := rank_le k i.val
    have hn3 := n.isLt
    have hn2 := rank_le k n.val
    by_cases hkn : kept k n.val
    · rw [pos_toInt _ _ (by rw [slot_kept k n hkn, toNat_ofNat_small _ (by omega)]; omega), slot_kept k n hkn,
        toNat_ofNat_small _ (by omega)] at hn
      have : rank k n.val = rank k i.val := by exact_mod_cast hn
      exact Fin.ext (Nat.count_injective hkn hi this)
    · rw [pos_toInt _ _ (by rw [slot_drop k n hkn]; decide), slot_drop k n hkn] at hn
      have : (33554432 : Int) = (rank k i.val : Int) := by simpa using hn
      omega

/-- A rank-zero array broadcast over the flat array reads as its one entry. -/
theorem bcast0_apply {β : Type} (x : S_.Idx → β) (j : S33554432.Idx) :
    broadcastInDim S33554432 ![] bcast_S_S33554432 x j = x ix0 := by
  unfold broadcastInDim
  congr 1
  funext a
  exact a.elim0

theorem back_eq (n : Fin 33554432) :
    back k (ix1 n) = Scalar.select (IntOp.cmpi .slt (BitVec.ofNat 32 n.val) (nnz k ix0))
      (setAt zerosI (slot k) (iotaInDim S33554432 32 0) (ix1 n)) 33554432#32 := by
  show Scalar.select (IntOp.cmpi .slt (BitVec.ofNat 32 n.val)
      (broadcastInDim S33554432 ![] bcast_S_S33554432 (nnz k) (ix1 n)))
      (setAt zerosI (slot k) (iotaInDim S33554432 32 0) (ix1 n)) 33554432#32 = _
  rw [bcast0_apply]

theorem nnz_small : (nnz k ix0).toNat ≤ 33554432 := by
  rw [nnz_toNat]; exact rank_le k _

/-- Compacted position `rank m` of a kept entry `m` goes back to `m`. -/
theorem back_of_rank (m : Fin 33554432) (hm : kept k m.val) :
    back k (ix1 ⟨rank k m.val, lt_of_le_of_lt (rank_le k m.val) m.isLt⟩) = BitVec.ofNat 32 m.val := by
  have h3 := m.isLt
  have h2 := rank_le k m.val
  have h4 := nnz_small k
  rw [back_eq, slt_small _ _ (by rw [toNat_ofNat_small _ (by omega)]; omega) (by omega),
    toNat_ofNat_small _ (by omega), nnz_toNat, if_pos (rank_lt_total k m.val h3 hm), select_one,
    compact_kept k zerosI (iotaInDim S33554432 32 0) m hm]
  rfl

/-- A compacted position at or past the number kept is dropped on the way back. -/
theorem back_ge (n : Fin 33554432) (hn : ¬ n.val < rank k 33554432) : back k (ix1 n) = 33554432#32 := by
  have h3 := n.isLt
  have h4 := nnz_small k
  rw [back_eq, slt_small _ _ (by rw [toNat_ofNat_small _ (by omega)]; omega) (by omega),
    toNat_ofNat_small _ (by omega), nnz_toNat, if_neg hn, select_zero]

/-- Where a compacted position goes back to: a kept entry's origin, or `N`. -/
theorem back_cases (n : Fin 33554432) :
    (∃ m : Fin 33554432, kept k m.val ∧ rank k m.val = n.val ∧ back k (ix1 n) = BitVec.ofNat 32 m.val)
      ∨ back k (ix1 n) = 33554432#32 := by
  by_cases hn : n.val < rank k 33554432
  · obtain ⟨m, hm, hpm, hcm⟩ := exists_rank (kept k) 33554432 n.val hn
    refine Or.inl ⟨⟨m, hm⟩, hpm, hcm, ?_⟩
    have : n = ⟨rank k m, lt_of_le_of_lt (rank_le k m) hm⟩ := Fin.ext hcm.symm
    rw [this]
    exact back_of_rank k ⟨m, hm⟩ hpm
  · exact Or.inr (back_ge k n hn)

/-! ## The round trip -/

/-- Compacting `y` under the mask and writing the compacted entries back into `z` leaves `y` where the mask is set
    and `z` elsewhere. -/
theorem roundTrip_apply (z' z y : S33554432.Idx → α) (i : S33554432.Idx) :
    roundTrip k z' z y i = Scalar.select (k i) (y i) (z i) := by
  obtain ⟨i, rfl⟩ : ∃ i' : Fin 33554432, i = ix1 i' := ⟨i 0, eq_ix1 i⟩
  have h3 := i.isLt
  unfold roundTrip
  rw [setAt_eq]
  by_cases hi : kept k i.val
  · have hk : k (ix1 i) = 1#1 := (kept_iff k i.val i.isLt).1 hi
    rw [hk, select_one]
    have hr := rank_le k i.val
    rw [scatter_set_hit _ z (col (wrap (back k))) (setAt z' (slot k) y) i
      ⟨rank k i.val, lt_of_le_of_lt (rank_le k i.val) i.isLt⟩ ?h0 ?hu]
    · exact compact_kept k z' y i hi
    case h0 =>
      rw [pos_toInt _ _ (by rw [back_of_rank k i hi, toNat_ofNat_small _ (by omega)]; omega), back_of_rank k i hi,
        toNat_ofNat_small _ (by omega)]
    case hu =>
      intro n hn
      rcases back_cases k n with ⟨m, hpm, hcm, hb⟩ | hb
      · have hm3 := m.isLt
        rw [pos_toInt _ _ (by rw [hb, toNat_ofNat_small _ (by omega)]; omega), hb, toNat_ofNat_small _ (by omega)] at hn
        have hmi : m = i := Fin.ext (by exact_mod_cast hn)
        subst hmi
        exact Fin.ext hcm.symm
      · rw [pos_toInt _ _ (by rw [hb]; decide), hb] at hn
        have : (33554432 : Int) = (i.val : Int) := by simpa using hn
        omega
  · have hk : k (ix1 i) = 0#1 := by
      rcases bit_cases (k (ix1 i)) with h | h
      · exact absurd ((kept_iff k i.val i.isLt).2 h) hi
      · exact h
    rw [hk, select_zero]
    refine scatter_set_miss _ z (col (wrap (back k))) (setAt z' (slot k) y) i ?_
    intro n hn
    rcases back_cases k n with ⟨m, hpm, hcm, hb⟩ | hb
    · have hm3 := m.isLt
      rw [pos_toInt _ _ (by rw [hb, toNat_ofNat_small _ (by omega)]; omega), hb, toNat_ofNat_small _ (by omega)] at hn
      have hmi : m = i := Fin.ext (by exact_mod_cast hn)
      subst hmi
      exact hi hpm
    · rw [pos_toInt _ _ (by rw [hb]; decide), hb] at hn
      have : (33554432 : Int) = (i.val : Int) := by simpa using hn
      omega

end Cert.ReferenceIdeal.Compact

end
-- ==== Proof.Bridge.lean ====
/-
  At the ideal instance the reference's result is the kernel's function of the argument, entry by entry: the
  round trip of compaction and writing back leaves the flat argument where `|x| > 1/2` and zero elsewhere, flattening and
  un-flattening are inverse re-indexings, and the two programs compare `|x|` with the same constant by the same
  comparison (the two absolute values are one function on the extended reals).
-/
import proofs.«142415_j64252710748372_1_alg».proof.Proof.Compact
import proofs.«142415_j64252710748372_1_alg».proof.Proof.Gen.KernelIdeal.Value

noncomputable section

namespace Cert.ReferenceIdeal.Bridge

open Cert.ReferenceIdeal Cert.ReferenceIdeal.Gen Cert.ReferenceIdeal.Stages Idealize.ShloMosaic

/-- The reference's result is the kernel's closed form of the same argument. -/
theorem out_eq (x : FVec Ideal S32x1024x1024 .f32) : out x = Cert.KernelIdeal.Value.G1 (F := Ideal) x := by
  funext I
  show roundTrip (mask (flat x)) zerosF zerosF (flat x) (Shape.reshapeEquiv shapeCasts_S33554432_S32x1024x1024 I) = _
  rw [Compact.roundTrip_apply]
  have hflat : flat x (Shape.reshapeEquiv shapeCasts_S33554432_S32x1024x1024 I) = x I := by
    show x (Shape.reshapeEquiv shapeCasts_S32x1024x1024_S33554432
      (Shape.reshapeEquiv shapeCasts_S33554432_S32x1024x1024 I)) = x I
    rw [Shape.reshapeEquiv_reshapeEquiv, Shape.reshapeEquiv_self]
  generalize Shape.reshapeEquiv shapeCasts_S33554432_S32x1024x1024 I = J at hflat ⊢
  show Scalar.select (FloatOps.cmpf .ogt (FloatOps.hostAbsf (flat x J)) (FloatOps.ofBits .f32 0x3F000000#32))
    (flat x J) (FloatOps.ofBits .f32 0x00000000#32) = _
  rw [hflat]
  rfl

end Cert.ReferenceIdeal.Bridge

end
-- ==== Proof.lean ====
/-
  The kernel keeps an entry of `x` where `|x| > 1/2` and writes zero elsewhere, block by block.  The reference
  flattens `x`, compacts the entries with `|x| > 1/2` to the front of a buffer (an inclusive running count of the mask
  gives each kept entry its place, every other entry is sent out of range and dropped) together with the positions they
  came from, and writes each compacted entry back to its position in a buffer of zeros.  A kept entry's place is its rank
  among the kept entries, ranks are distinct, and every place below the number kept is some kept entry's rank, so the
  round trip returns the entry where the mask is set and zero elsewhere: the kernel's function, entry by entry, on the
  extended reals (no arithmetic is done on the entries, so nothing here needs them finite).
  The three frames are the two generated kernel frames and the reference's run with its result dropped; the kernel's
  idealization rewrote nothing.
-/
import proofs.«142415_j64252710748372_1_alg».proof.Defs
import proofs.«142415_j64252710748372_1_alg».proof.Proof.Gen.Kernel
import proofs.«142415_j64252710748372_1_alg».proof.Proof.Gen.Kernel.Skeleton
import proofs.«142415_j64252710748372_1_alg».proof.Proof.Gen.Kernel.Launch
import proofs.«142415_j64252710748372_1_alg».proof.Proof.Gen.Kernel.Points
import proofs.«142415_j64252710748372_1_alg».proof.Proof.Gen.Kernel.Frame
import proofs.«142415_j64252710748372_1_alg».proof.Proof.Gen.KernelIdeal
import proofs.«142415_j64252710748372_1_alg».proof.Proof.Gen.KernelIdeal.Skeleton
import proofs.«142415_j64252710748372_1_alg».proof.Proof.Gen.KernelIdeal.Launch
import proofs.«142415_j64252710748372_1_alg».proof.Proof.Gen.KernelIdeal.Points
import proofs.«142415_j64252710748372_1_alg».proof.Proof.Gen.KernelIdeal.Frame
import proofs.«142415_j64252710748372_1_alg».proof.Proof.Gen.KernelIdeal.Value
import proofs.«142415_j64252710748372_1_alg».proof.Proof.Gen.ReferenceIdeal
import proofs.«142415_j64252710748372_1_alg».proof.Proof.Gen.Pre_finite_inputs
import proofs.«142415_j64252710748372_1_alg».proof.Proof.RefRun
import proofs.«142415_j64252710748372_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- Both runs end with the masked argument: the kernel's closed form, and the reference's round trip read as the
    same function. -/
theorem algebraic : Cert.algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.Bridge.out_eq _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
